-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 89
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S100000, .i32⟩
  | 102 => ⟨S1700000, .i32⟩
  | 103 => ⟨S1700000, .i32⟩
  | 104 => ⟨S_, .f32⟩
  | 105 => ⟨S1700000, .f32⟩
  | 106 => ⟨S_, .f32⟩
  | 107 => ⟨S100000, .f32⟩
  | 108 => ⟨S1700000x1, .i32⟩
  | 109 => ⟨S100000, .f32⟩
  | 110 => ⟨S_, .f32⟩
  | 111 => ⟨S100000, .f32⟩
  | 112 => ⟨S100000, .i1⟩
  | 113 => ⟨S100000, .f32⟩
  | 114 => ⟨S_, .f32⟩
  | 115 => ⟨S_, .f32⟩
  | 116 => ⟨S100000, .f32⟩
  | 117 => ⟨S100000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000, .f32⟩
  | 127 => ⟨S1700000, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000, .f32⟩
  | 9 => ⟨S1700000, .f32⟩
  | 10 => ⟨S100000x64, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x64, .f32⟩
  | 20 => ⟨S1700000x1, .f32⟩
  | 21 => ⟨S1700000x64, .f32⟩
  | 22 => ⟨S1700000x64, .f32⟩
  | 23 => ⟨S_, .f32⟩
  | 24 => ⟨S100000x64, .f32⟩
  | 25 => ⟨S1700000x1, .i32⟩
  | 26 => ⟨S100000x64, .f32⟩
  | 27 => ⟨S1x64, .f32⟩
  | 28 => ⟨S100000x64, .f32⟩
  | 29 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_call2_v0 : Ref sig .tc := ⟨.hbm, 115, rfl⟩
abbrev main_call2_v1 : Ref sig .tc := ⟨.hbm, 116, rfl⟩
abbrev main_v83 : Ref sig .tc := ⟨.hbm, 117, rfl⟩
abbrev main_c_18 : Ref sig .tc := ⟨.hbm, 118, rfl⟩
abbrev main_v84 : Ref sig .tc := ⟨.hbm, 119, rfl⟩
abbrev main_v85 : Ref sig .tc := ⟨.hbm, 120, rfl⟩
abbrev main_c_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_c_21 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_c_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_24 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.HostStages.lean ====
/-
  The host stretches of the tiled program, read against the stages of the reference.

  Both programs build the graph's normalisation the same way, operation for operation: the source and destination
  lists with the self loops appended, the degree of every node by a scatter-add of ones, its inverse square root
  where positive, and for every edge the product of the two end points' values.  The tiled program does this once,
  before its first kernel region, and carries the three arrays through all four regions; no region and no later
  host operation writes them.  So at every later boundary they are still what the reference computes from the edge
  list.  The same holds for the argument arrays, which nothing writes.
-/
import proofs.«129371_j28140625723733_1_alg».proof.Proof.Gen.KernelIdeal.Frame
import proofs.«129371_j28140625723733_1_alg».proof.Proof.RefRead
import Idealize.ShloMosaic.Lib.StableHlo.Run

set_option maxRecDepth 16384

noncomputable section

namespace Cert.KernelIdeal.HostStages

open Cert.KernelIdeal Cert.KernelIdeal.Gen
open Idealize.ShloMosaic Idealize.ShloMosaic.TcCoe Idealize.SL.Sem
open Cert.ReferenceIdeal.ReadP

variable {F : FTy → Type} [FloatOps F]

/-- A transport along an equation of an element type with itself does nothing (a host reshape's result carries one). -/
theorem transport_self {Val : EltTy → Type} {e : EltTy} (he : e = e) (v : Val e) : (he ▸ v : Val e) = v := rfl

/-! # Each host stretch from ANY contents V of the buffers it reads

## The first stretch: the two lists with the self loops, the ones, the degree's sign test and inverse root -/

set_option maxHeartbeats 2000000 in
theorem s0_src (V : Valuation τ sig (Elt F)) :
    StableHlo.after hostOps0 V (Proc.devRef .tc main_v5) = val_main_v5 (F := F) (V (Proc.devRef .tc main_arg1)) := by
  dsimp only [hostOps0]
  after_results
  simp only [transport_self]
  rfl

set_option maxHeartbeats 2000000 in
theorem s0_dst (V : Valuation τ sig (Elt F)) :
    StableHlo.after hostOps0 V (Proc.devRef .tc main_v6) = val_main_v6 (F := F) (V (Proc.devRef .tc main_arg1)) := by
  dsimp only [hostOps0]
  after_results
  simp only [transport_self]
  rfl

set_option maxHeartbeats 2000000 in
theorem s0_ones (V : Valuation τ sig (Elt F)) :
    StableHlo.after hostOps0 V (Proc.devRef .tc main_v7) = val_main_v7 (F := F) := by
  dsimp only [hostOps0]
  after_results
  try rfl

set_option maxHeartbeats 4000000 in
theorem s0_pos (V : Valuation τ sig (Elt F)) :
    StableHlo.after hostOps0 V (Proc.devRef .tc main_v12) = val_main_v12 (F := F) (V (Proc.devRef .tc main_arg1)) := by
  dsimp only [hostOps0]
  after_results
  simp only [transport_self]
  rfl

set_option maxHeartbeats 4000000 in
theorem s0_rs (V : Valuation τ sig (Elt F)) :
    StableHlo.after hostOps0 V (Proc.devRef .tc main_v13) = val_main_v13 (F := F) (V (Proc.devRef .tc main_arg1)) := by
  dsimp only [hostOps0]
  after_results
  simp only [transport_self]
  rfl

set_option maxHeartbeats 2000000 in
theorem s0_zero (V : Valuation τ sig (Elt F)) :
    StableHlo.after hostOps0 V (Proc.devRef .tc main_cst_2) = val_main_cst_2 (F := F) := by
  dsimp only [hostOps0]
  after_results
  try rfl

theorem s0_arg0 (V : Valuation τ sig (Elt F)) : StableHlo.after hostOps0 V (Proc.devRef .tc main_arg0) = V (Proc.devRef .tc main_arg0) := by
  dsimp only [hostOps0]
  after_results

theorem s0_arg1 (V : Valuation τ sig (Elt F)) : StableHlo.after hostOps0 V (Proc.devRef .tc main_arg1) = V (Proc.devRef .tc main_arg1) := by
  dsimp only [hostOps0]
  after_results

theorem s0_arg2 (V : Valuation τ sig (Elt F)) : StableHlo.after hostOps0 V (Proc.devRef .tc main_arg2) = V (Proc.devRef .tc main_arg2) := by
  dsimp only [hostOps0]
  after_results

theorem s0_arg3 (V : Valuation τ sig (Elt F)) : StableHlo.after hostOps0 V (Proc.devRef .tc main_arg3) = V (Proc.devRef .tc main_arg3) := by
  dsimp only [hostOps0]
  after_results

theorem s0_arg4 (V : Valuation τ sig (Elt F)) : StableHlo.after hostOps0 V (Proc.devRef .tc main_arg4) = V (Proc.devRef .tc main_arg4) := by
  dsimp only [hostOps0]
  after_results

theorem s0_arg5 (V : Valuation τ sig (Elt F)) : StableHlo.after hostOps0 V (Proc.devRef .tc main_arg5) = V (Proc.devRef .tc main_arg5) := by
  dsimp only [hostOps0]
  after_results

theorem s0_arg6 (V : Valuation τ sig (Elt F)) : StableHlo.after hostOps0 V (Proc.devRef .tc main_arg6) = V (Proc.devRef .tc main_arg6) := by
  dsimp only [hostOps0]
  after_results

theorem s0_arg7 (V : Valuation τ sig (Elt F)) : StableHlo.after hostOps0 V (Proc.devRef .tc main_arg7) = V (Proc.devRef .tc main_arg7) := by
  dsimp only [hostOps0]
  after_results

/-! ## The inlined select: the inverse root where the degree is positive, zero elsewhere -/

set_option maxHeartbeats 2000000 in
theorem s1_dinv (V : Valuation τ sig (Elt F)) (x1 : (⟨Cert.ReferenceIdeal.S2x1600000, .i32⟩ : BufTy).Contents (Elt F))
    (h12 : V (Proc.devRef .tc main_v12) = val_main_v12 (F := F) x1) (h13 : V (Proc.devRef .tc main_v13) = val_main_v13 (F := F) x1)
    (h2 : V (Proc.devRef .tc main_cst_2) = val_main_cst_2 (F := F)) :
    StableHlo.after hostOps0_1 V (Proc.devRef .tc main_v14) = val_main_v14 (F := F) x1 := by
  dsimp only [hostOps0_1]
  after_results
  rw [h12, h13, h2]
  simp only [StableHlo.TRef.ofBuf, StableHlo.TRef.toBuf, cast_eq]
  rfl

theorem s1_v5 (V : Valuation τ sig (Elt F)) : StableHlo.after hostOps0_1 V (Proc.devRef .tc main_v5) = V (Proc.devRef .tc main_v5) := by
  dsimp only [hostOps0_1]
  after_results

theorem s1_v6 (V : Valuation τ sig (Elt F)) : StableHlo.after hostOps0_1 V (Proc.devRef .tc main_v6) = V (Proc.devRef .tc main_v6) := by
  dsimp only [hostOps0_1]
  after_results

theorem s1_v7 (V : Valuation τ sig (Elt F)) : StableHlo.after hostOps0_1 V (Proc.devRef .tc main_v7) = V (Proc.devRef .tc main_v7) := by
  dsimp only [hostOps0_1]
  after_results

theorem s1_arg0 (V : Valuation τ sig (Elt F)) : StableHlo.after hostOps0_1 V (Proc.devRef .tc main_arg0) = V (Proc.devRef .tc main_arg0) := by
  dsimp only [hostOps0_1]
  after_results

theorem s1_arg1 (V : Valuation τ sig (Elt F)) : StableHlo.after hostOps0_1 V (Proc.devRef .tc main_arg1) = V (Proc.devRef .tc main_arg1) := by
  dsimp only [hostOps0_1]
  after_results

theorem s1_arg2 (V : Valuation τ sig (Elt F)) : StableHlo.after hostOps0_1 V (Proc.devRef .tc main_arg2) = V (Proc.devRef .tc main_arg2) := by
  dsimp only [hostOps0_1]
  after_results

theorem s1_arg3 (V : Valuation τ sig (Elt F)) : StableHlo.after hostOps0_1 V (Proc.devRef .tc main_arg3) = V (Proc.devRef .tc main_arg3) := by
  dsimp only [hostOps0_1]
  after_results

theorem s1_arg4 (V : Valuation τ sig (Elt F)) : StableHlo.after hostOps0_1 V (Proc.devRef .tc main_arg4) = V (Proc.devRef .tc main_arg4) := by
  dsimp only [hostOps0_1]
  after_results

theorem s1_arg5 (V : Valuation τ sig (Elt F)) : StableHlo.after hostOps0_1 V (Proc.devRef .tc main_arg5) = V (Proc.devRef .tc main_arg5) := by
  dsimp only [hostOps0_1]
  after_results

theorem s1_arg6 (V : Valuation τ sig (Elt F)) : StableHlo.after hostOps0_1 V (Proc.devRef .tc main_arg6) = V (Proc.devRef .tc main_arg6) := by
  dsimp only [hostOps0_1]
  after_results

theorem s1_arg7 (V : Valuation τ sig (Elt F)) : StableHlo.after hostOps0_1 V (Proc.devRef .tc main_arg7) = V (Proc.devRef .tc main_arg7) := by
  dsimp only [hostOps0_1]
  after_results

/-! ## The third stretch: the weight of every edge -/

set_option maxHeartbeats 4000000 in
theorem s2_norm (V : Valuation τ sig (Elt F)) (x1 : (⟨Cert.ReferenceIdeal.S2x1600000, .i32⟩ : BufTy).Contents (Elt F))
    (h14 : V (Proc.devRef .tc main_v14) = val_main_v14 (F := F) x1) (h5 : V (Proc.devRef .tc main_v5) = val_main_v5 (F := F) x1)
    (h6 : V (Proc.devRef .tc main_v6) = val_main_v6 (F := F) x1) (h7 : V (Proc.devRef .tc main_v7) = val_main_v7 (F := F)) :
    StableHlo.after hostOps0_2 V (Proc.devRef .tc main_v30) = val_main_v30 (F := F) x1 := by
  dsimp only [hostOps0_2]
  after_results
  rw [h14, h5, h6, h7]
  rfl

theorem s2_v5 (V : Valuation τ sig (Elt F)) : StableHlo.after hostOps0_2 V (Proc.devRef .tc main_v5) = V (Proc.devRef .tc main_v5) := by
  dsimp only [hostOps0_2]
  after_results

theorem s2_v6 (V : Valuation τ sig (Elt F)) : StableHlo.after hostOps0_2 V (Proc.devRef .tc main_v6) = V (Proc.devRef .tc main_v6) := by
  dsimp only [hostOps0_2]
  after_results

theorem s2_arg0 (V : Valuation τ sig (Elt F)) : StableHlo.after hostOps0_2 V (Proc.devRef .tc main_arg0) = V (Proc.devRef .tc main_arg0) := by
  dsimp only [hostOps0_2]
  after_results

theorem s2_arg2 (V : Valuation τ sig (Elt F)) : StableHlo.after hostOps0_2 V (Proc.devRef .tc main_arg2) = V (Proc.devRef .tc main_arg2) := by
  dsimp only [hostOps0_2]
  after_results

theorem s2_arg3 (V : Valuation τ sig (Elt F)) : StableHlo.after hostOps0_2 V (Proc.devRef .tc main_arg3) = V (Proc.devRef .tc main_arg3) := by
  dsimp only [hostOps0_2]
  after_results

theorem s2_arg4 (V : Valuation τ sig (Elt F)) : StableHlo.after hostOps0_2 V (Proc.devRef .tc main_arg4) = V (Proc.devRef .tc main_arg4) := by
  dsimp only [hostOps0_2]
  after_results

theorem s2_arg5 (V : Valuation τ sig (Elt F)) : StableHlo.after hostOps0_2 V (Proc.devRef .tc main_arg5) = V (Proc.devRef .tc main_arg5) := by
  dsimp only [hostOps0_2]
  after_results

theorem s2_arg6 (V : Valuation τ sig (Elt F)) : StableHlo.after hostOps0_2 V (Proc.devRef .tc main_arg6) = V (Proc.devRef .tc main_arg6) := by
  dsimp only [hostOps0_2]
  after_results

theorem s2_arg7 (V : Valuation τ sig (Elt F)) : StableHlo.after hostOps0_2 V (Proc.devRef .tc main_arg7) = V (Proc.devRef .tc main_arg7) := by
  dsimp only [hostOps0_2]
  after_results

/-! # The boundaries of the tiled program -/

variable (m : (ℓ : Loc nD τ sig) → Buf (Elt F) ℓ) (ρ : Dev nD → PrngReg)

/-- The edge list as launched. -/
abbrev edges (c : Dev nD) : (⟨Cert.ReferenceIdeal.S2x1600000, .i32⟩ : BufTy).Contents (Elt F) := m ((c : Thread nD τ).loc main_arg1)

/-- The edge list reaches the third stretch unwritten. -/
theorem w2_edges (c : Dev nD) : W2 m ρ c (Proc.devRef .tc main_arg1) = edges m c :=
  (s1_arg1 (W1 m ρ c)).trans (s0_arg1 (W0 m ρ c))

/-- The source list with the self loops appended, at the first region's entry. -/
theorem w3_src (c : Dev nD) : W3 m ρ c (Proc.devRef .tc main_v5) = val_main_v5 (F := F) (edges m c) :=
  (s2_v5 (W2 m ρ c)).trans ((s1_v5 (W1 m ρ c)).trans (s0_src (W0 m ρ c)))
/-- The destination list with the self loops appended, at the first region's entry. -/
theorem w3_dst (c : Dev nD) : W3 m ρ c (Proc.devRef .tc main_v6) = val_main_v6 (F := F) (edges m c) :=
  (s2_v6 (W2 m ρ c)).trans ((s1_v6 (W1 m ρ c)).trans (s0_dst (W0 m ρ c)))
/-- The weight of every edge, at the first region's entry. -/
theorem w3_norm (c : Dev nD) : W3 m ρ c (Proc.devRef .tc main_v30) = val_main_v30 (F := F) (edges m c) :=
  s2_norm (W2 m ρ c) (edges m c)
    (s1_dinv (W1 m ρ c) (edges m c) (s0_pos (W0 m ρ c)) (s0_rs (W0 m ρ c)) (s0_zero (W0 m ρ c)))
    ((s1_v5 (W1 m ρ c)).trans (s0_src (W0 m ρ c))) ((s1_v6 (W1 m ρ c)).trans (s0_dst (W0 m ρ c)))
    ((s1_v7 (W1 m ρ c)).trans (s0_ones (W0 m ρ c)))

theorem w3_arg0 (c : Dev nD) : W3 m ρ c (Proc.devRef .tc main_arg0) = m ((c : Thread nD τ).loc main_arg0) :=
  (s2_arg0 (W2 m ρ c)).trans ((s1_arg0 (W1 m ρ c)).trans (s0_arg0 (W0 m ρ c)))

theorem w3_arg2 (c : Dev nD) : W3 m ρ c (Proc.devRef .tc main_arg2) = m ((c : Thread nD τ).loc main_arg2) :=
  (s2_arg2 (W2 m ρ c)).trans ((s1_arg2 (W1 m ρ c)).trans (s0_arg2 (W0 m ρ c)))

theorem w3_arg3 (c : Dev nD) : W3 m ρ c (Proc.devRef .tc main_arg3) = m ((c : Thread nD τ).loc main_arg3) :=
  (s2_arg3 (W2 m ρ c)).trans ((s1_arg3 (W1 m ρ c)).trans (s0_arg3 (W0 m ρ c)))

theorem w3_arg4 (c : Dev nD) : W3 m ρ c (Proc.devRef .tc main_arg4) = m ((c : Thread nD τ).loc main_arg4) :=
  (s2_arg4 (W2 m ρ c)).trans ((s1_arg4 (W1 m ρ c)).trans (s0_arg4 (W0 m ρ c)))

theorem w3_arg5 (c : Dev nD) : W3 m ρ c (Proc.devRef .tc main_arg5) = m ((c : Thread nD τ).loc main_arg5) :=
  (s2_arg5 (W2 m ρ c)).trans ((s1_arg5 (W1 m ρ c)).trans (s0_arg5 (W0 m ρ c)))

theorem w3_arg6 (c : Dev nD) : W3 m ρ c (Proc.devRef .tc main_arg6) = m ((c : Thread nD τ).loc main_arg6) :=
  (s2_arg6 (W2 m ρ c)).trans ((s1_arg6 (W1 m ρ c)).trans (s0_arg6 (W0 m ρ c)))

theorem w3_arg7 (c : Dev nD) : W3 m ρ c (Proc.devRef .tc main_arg7) = m ((c : Thread nD τ).loc main_arg7) :=
  (s2_arg7 (W2 m ρ c)).trans ((s1_arg7 (W1 m ρ c)).trans (s0_arg7 (W0 m ρ c)))

end Cert.KernelIdeal.HostStages

end
-- ==== Proof.HostAgg.lean ====
/-
  The two aggregation stretches of the tiled program, and the reshaped parameter rows, read against the reference.

  An aggregation gathers the rows of a feature matrix at the edges' sources, scales each gathered row by its edge
  weight and scatter-adds it at the edge's destination.  The tiled program and the reference spell it with the same
  operations; they differ only in where the feature matrix comes from (a tiled region's output array against a
  stage of the reference), so each stretch is read with that matrix as a hypothesis.  The reference computes the
  source list, the destination list and the edge weights a second time for its second layer, by the same operations
  of the same edge list: the second copies are the first ones.

  A parameter vector reaches a tiled region as a 1 × n array; its entry (0, j) is the vector's entry j.
-/
import proofs.«129371_j28140625723733_1_alg».proof.Proof.HostStages
import Idealize.ShloMosaic.Lib.Pipeline.Value
import Idealize.ShloMosaic.Lib.ValueIdx

set_option maxRecDepth 16384

noncomputable section

namespace Cert.KernelIdeal.HostStages

open Cert.KernelIdeal Cert.KernelIdeal.Gen
open Idealize.ShloMosaic Idealize.ShloMosaic.TcCoe Idealize.ShloMosaic.ValueIdx Idealize.SL.Sem
open Cert.ReferenceIdeal.ReadP

variable {F : FTy → Type} [FloatOps F]

/-! ## The reference's second copy of the normalisation is its first -/

theorem second_src (x1 : (⟨Cert.ReferenceIdeal.S2x1600000, .i32⟩ : BufTy).Contents (Elt F)) : val_main_v74 (F := F) x1 = val_main_v5 (F := F) x1 := rfl
theorem second_dst (x1 : (⟨Cert.ReferenceIdeal.S2x1600000, .i32⟩ : BufTy).Contents (Elt F)) : val_main_v75 (F := F) x1 = val_main_v6 (F := F) x1 := rfl
set_option maxHeartbeats 4000000 in
theorem second_norm (x1 : (⟨Cert.ReferenceIdeal.S2x1600000, .i32⟩ : BufTy).Contents (Elt F)) : val_main_v99 (F := F) x1 = val_main_v30 (F := F) x1 := rfl

/-! ## The first aggregation stretch, from any contents V: the aggregated features and the three parameter rows -/

set_option maxHeartbeats 4000000 in
theorem s3_agg (V : Valuation τ sig (Elt F)) (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F))
    (h31 : V (Proc.devRef .tc main_v31) = val_main_v31 (F := F) x0 x2) (h5 : V (Proc.devRef .tc main_v5) = val_main_v5 (F := F) x1)
    (h6 : V (Proc.devRef .tc main_v6) = val_main_v6 (F := F) x1) (h30 : V (Proc.devRef .tc main_v30) = val_main_v30 (F := F) x1) :
    StableHlo.after hostOps1 V (Proc.devRef .tc main_v44) = val_main_v44 (F := F) x0 x1 x2 := by
  dsimp only [hostOps1]
  after_results
  rw [h31, h5, h6, h30]
  rfl

set_option maxHeartbeats 2000000 in
theorem s3_row3 (V : Valuation τ sig (Elt F)) :
    StableHlo.after hostOps1 V (Proc.devRef .tc main_v45) = shapeCast S1x128 (V (Proc.devRef .tc main_arg3) : S128.Idx → Elt F .f32) shapeCasts_S128_S1x128 := by
  dsimp only [hostOps1]
  after_results
  simp only [transport_self]
  try rfl

set_option maxHeartbeats 2000000 in
theorem s3_row4 (V : Valuation τ sig (Elt F)) :
    StableHlo.after hostOps1 V (Proc.devRef .tc main_v46) = shapeCast S1x128 (V (Proc.devRef .tc main_arg4) : S128.Idx → Elt F .f32) shapeCasts_S128_S1x128 := by
  dsimp only [hostOps1]
  after_results
  simp only [transport_self]
  try rfl

set_option maxHeartbeats 2000000 in
theorem s3_row5 (V : Valuation τ sig (Elt F)) :
    StableHlo.after hostOps1 V (Proc.devRef .tc main_v47) = shapeCast S1x128 (V (Proc.devRef .tc main_arg5) : S128.Idx → Elt F .f32) shapeCasts_S128_S1x128 := by
  dsimp only [hostOps1]
  after_results
  simp only [transport_self]
  try rfl

theorem s3_v5 (V : Valuation τ sig (Elt F)) : StableHlo.after hostOps1 V (Proc.devRef .tc main_v5) = V (Proc.devRef .tc main_v5) := by
  dsimp only [hostOps1]
  after_results

theorem s3_v6 (V : Valuation τ sig (Elt F)) : StableHlo.after hostOps1 V (Proc.devRef .tc main_v6) = V (Proc.devRef .tc main_v6) := by
  dsimp only [hostOps1]
  after_results

theorem s3_v30 (V : Valuation τ sig (Elt F)) : StableHlo.after hostOps1 V (Proc.devRef .tc main_v30) = V (Proc.devRef .tc main_v30) := by
  dsimp only [hostOps1]
  after_results

theorem s3_arg6 (V : Valuation τ sig (Elt F)) : StableHlo.after hostOps1 V (Proc.devRef .tc main_arg6) = V (Proc.devRef .tc main_arg6) := by
  dsimp only [hostOps1]
  after_results

theorem s3_arg7 (V : Valuation τ sig (Elt F)) : StableHlo.after hostOps1 V (Proc.devRef .tc main_arg7) = V (Proc.devRef .tc main_arg7) := by
  dsimp only [hostOps1]
  after_results

/-! ## The second aggregation stretch, from any contents V -/

set_option maxHeartbeats 4000000 in
theorem s4_agg (V : Valuation τ sig (Elt F)) (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F))
    (x3 x4 x5 : (⟨Cert.ReferenceIdeal.S128, .f32⟩ : BufTy).Contents (Elt F)) (x6 : (⟨Cert.ReferenceIdeal.S128x64, .f32⟩ : BufTy).Contents (Elt F))
    (h49 : V (Proc.devRef .tc main_v49) = val_main_v100 (F := F) x0 x1 x2 x3 x4 x5 x6) (h5 : V (Proc.devRef .tc main_v5) = val_main_v5 (F := F) x1)
    (h6 : V (Proc.devRef .tc main_v6) = val_main_v6 (F := F) x1) (h30 : V (Proc.devRef .tc main_v30) = val_main_v30 (F := F) x1) :
    StableHlo.after hostOps3 V (Proc.devRef .tc main_v62) = val_main_v113 (F := F) x0 x1 x2 x3 x4 x5 x6 := by
  dsimp only [hostOps3]
  after_results
  rw [h49, h5, h6, h30, ← second_src, ← second_dst, ← second_norm]
  rfl

set_option maxHeartbeats 2000000 in
theorem s4_row7 (V : Valuation τ sig (Elt F)) :
    StableHlo.after hostOps3 V (Proc.devRef .tc main_v63) = shapeCast S1x64 (V (Proc.devRef .tc main_arg7) : S64.Idx → Elt F .f32) shapeCasts_S64_S1x64 := by
  dsimp only [hostOps3]
  after_results
  simp only [transport_self]
  try rfl

/-- Entry (0, j) of a vector recast as a one-row matrix is entry j of the vector. -/
theorem row_entry {α : Type} {n : ℕ} (v : (⟨1, ![n]⟩ : Shape).Idx → α) (h : (⟨1, ![n]⟩ : Shape).ShapeCasts ⟨2, ![1, n]⟩) (j : Fin n) :
    shapeCast (⟨2, ![1, n]⟩ : Shape) v h (ix2 0 j) = v (ix1 j) :=
  (shapeCast_addUnit_apply ![n] v h (ix2 0 j)).trans (congrArg v (funext fun a => by match a with | ⟨0, _⟩ => rfl))

/-! # The boundaries of the tiled program -/

variable (m : (ℓ : Loc nD τ sig) → Buf (Elt F) ℓ) (ρ : Dev nD → PrngReg)

/-- After the first region. -/
theorem w4_src (c : Dev nD) : W4 m ρ c (Proc.devRef .tc main_v5) = val_main_v5 (F := F) (edges m c) :=
  (W4_of_ne m ρ c main_v5 (by decide)).trans (w3_src m ρ c)
/-- After the third region. -/
theorem w7_src (c : Dev nD) : W7 m ρ c (Proc.devRef .tc main_v5) = val_main_v5 (F := F) (edges m c) :=
  (W7_of_ne m ρ c main_v5 (by decide)).trans ((W6_of_ne m ρ c main_v5 (by decide)).trans ((s3_v5 (W4 m ρ c)).trans (w4_src m ρ c)))

/-- After the first region. -/
theorem w4_dst (c : Dev nD) : W4 m ρ c (Proc.devRef .tc main_v6) = val_main_v6 (F := F) (edges m c) :=
  (W4_of_ne m ρ c main_v6 (by decide)).trans (w3_dst m ρ c)
/-- After the third region. -/
theorem w7_dst (c : Dev nD) : W7 m ρ c (Proc.devRef .tc main_v6) = val_main_v6 (F := F) (edges m c) :=
  (W7_of_ne m ρ c main_v6 (by decide)).trans ((W6_of_ne m ρ c main_v6 (by decide)).trans ((s3_v6 (W4 m ρ c)).trans (w4_dst m ρ c)))

/-- After the first region. -/
theorem w4_norm (c : Dev nD) : W4 m ρ c (Proc.devRef .tc main_v30) = val_main_v30 (F := F) (edges m c) :=
  (W4_of_ne m ρ c main_v30 (by decide)).trans (w3_norm m ρ c)
/-- After the third region. -/
theorem w7_norm (c : Dev nD) : W7 m ρ c (Proc.devRef .tc main_v30) = val_main_v30 (F := F) (edges m c) :=
  (W7_of_ne m ρ c main_v30 (by decide)).trans ((W6_of_ne m ρ c main_v30 (by decide)).trans ((s3_v30 (W4 m ρ c)).trans (w4_norm m ρ c)))

theorem w4_arg3 (c : Dev nD) : W4 m ρ c (Proc.devRef .tc main_arg3) = m ((c : Thread nD τ).loc main_arg3) :=
  (W4_of_ne m ρ c main_arg3 (by decide)).trans (w3_arg3 m ρ c)

theorem w4_arg4 (c : Dev nD) : W4 m ρ c (Proc.devRef .tc main_arg4) = m ((c : Thread nD τ).loc main_arg4) :=
  (W4_of_ne m ρ c main_arg4 (by decide)).trans (w3_arg4 m ρ c)

theorem w4_arg5 (c : Dev nD) : W4 m ρ c (Proc.devRef .tc main_arg5) = m ((c : Thread nD τ).loc main_arg5) :=
  (W4_of_ne m ρ c main_arg5 (by decide)).trans (w3_arg5 m ρ c)

theorem w6_arg6 (c : Dev nD) : W6 m ρ c (Proc.devRef .tc main_arg6) = m ((c : Thread nD τ).loc main_arg6) :=
  (W6_of_ne m ρ c main_arg6 (by decide)).trans ((s3_arg6 (W4 m ρ c)).trans ((W4_of_ne m ρ c main_arg6 (by decide)).trans (w3_arg6 m ρ c)))
theorem w7_arg7 (c : Dev nD) : W7 m ρ c (Proc.devRef .tc main_arg7) = m ((c : Thread nD τ).loc main_arg7) :=
  (W7_of_ne m ρ c main_arg7 (by decide)).trans ((W6_of_ne m ρ c main_arg7 (by decide)).trans ((s3_arg7 (W4 m ρ c)).trans ((W4_of_ne m ρ c main_arg7 (by decide)).trans (w3_arg7 m ρ c))))

/-- The first aggregation: if the first region's output is the reference's first dense layer, the second region's
    input is the reference's aggregated features. -/
theorem w5_agg_of (c : Dev nD) (x0 : (⟨Cert.ReferenceIdeal.S100000x128, .f32⟩ : BufTy).Contents (Elt F)) (x2 : (⟨Cert.ReferenceIdeal.S128x128, .f32⟩ : BufTy).Contents (Elt F))
    (hH : W4 m ρ c (Proc.devRef .tc main_v31) = val_main_v31 (F := F) x0 x2) :
    W5 m ρ c (Proc.devRef .tc main_v44) = val_main_v44 (F := F) x0 (edges m c) x2 :=
  s3_agg (W4 m ρ c) x0 (edges m c) x2 hH (w4_src m ρ c) (w4_dst m ρ c) (w4_norm m ρ c)

/-- The second aggregation: if the third region's output is the reference's second dense layer, the fourth region's
    input is the reference's aggregated output features. -/
theorem w8_agg_of (c : Dev nD) (x0 : (⟨Cert.ReferenceIdeal.S100000x128, .f32⟩ : BufTy).Contents (Elt F)) (x2 : (⟨Cert.ReferenceIdeal.S128x128, .f32⟩ : BufTy).Contents (Elt F)) (x3 x4 x5 : (⟨Cert.ReferenceIdeal.S128, .f32⟩ : BufTy).Contents (Elt F)) (x6 : (⟨Cert.ReferenceIdeal.S128x64, .f32⟩ : BufTy).Contents (Elt F))
    (hH : W7 m ρ c (Proc.devRef .tc main_v49) = val_main_v100 (F := F) x0 (edges m c) x2 x3 x4 x5 x6) :
    W8 m ρ c (Proc.devRef .tc main_v62) = val_main_v113 (F := F) x0 (edges m c) x2 x3 x4 x5 x6 :=
  s4_agg (W7 m ρ c) x0 (edges m c) x2 x3 x4 x5 x6 hH (w7_src m ρ c) (w7_dst m ρ c) (w7_norm m ρ c)

theorem w5_biasRow (c : Dev nD) (j : Fin 128) :
    (W5 m ρ c (Proc.devRef .tc main_v45) : S1x128.Idx → Elt F .f32) (ix2 0 j) = (m ((c : Thread nD τ).loc main_arg3) : S128.Idx → Elt F .f32) (ix1 j) := by
  have e : W5 m ρ c (Proc.devRef .tc main_v45) = shapeCast S1x128 (m ((c : Thread nD τ).loc main_arg3) : S128.Idx → Elt F .f32) shapeCasts_S128_S1x128 := by
    refine (s3_row3 (W4 m ρ c)).trans ?_
    rw [w4_arg3]
  rw [e]
  exact row_entry _ _ j

theorem w5_scaleRow (c : Dev nD) (j : Fin 128) :
    (W5 m ρ c (Proc.devRef .tc main_v46) : S1x128.Idx → Elt F .f32) (ix2 0 j) = (m ((c : Thread nD τ).loc main_arg4) : S128.Idx → Elt F .f32) (ix1 j) := by
  have e : W5 m ρ c (Proc.devRef .tc main_v46) = shapeCast S1x128 (m ((c : Thread nD τ).loc main_arg4) : S128.Idx → Elt F .f32) shapeCasts_S128_S1x128 := by
    refine (s3_row4 (W4 m ρ c)).trans ?_
    rw [w4_arg4]
  rw [e]
  exact row_entry _ _ j

theorem w5_shiftRow (c : Dev nD) (j : Fin 128) :
    (W5 m ρ c (Proc.devRef .tc main_v47) : S1x128.Idx → Elt F .f32) (ix2 0 j) = (m ((c : Thread nD τ).loc main_arg5) : S128.Idx → Elt F .f32) (ix1 j) := by
  have e : W5 m ρ c (Proc.devRef .tc main_v47) = shapeCast S1x128 (m ((c : Thread nD τ).loc main_arg5) : S128.Idx → Elt F .f32) shapeCasts_S128_S1x128 := by
    refine (s3_row5 (W4 m ρ c)).trans ?_
    rw [w4_arg5]
  rw [e]
  exact row_entry _ _ j

theorem w8_biasRow (c : Dev nD) (j : Fin 64) :
    (W8 m ρ c (Proc.devRef .tc main_v63) : S1x64.Idx → Elt F .f32) (ix2 0 j) = (m ((c : Thread nD τ).loc main_arg7) : S64.Idx → Elt F .f32) (ix1 j) := by
  have e : W8 m ρ c (Proc.devRef .tc main_v63) = shapeCast S1x64 (m ((c : Thread nD τ).loc main_arg7) : S64.Idx → Elt F .f32) shapeCasts_S64_S1x64 := by
    refine (s4_row7 (W7 m ρ c)).trans ?_
    rw [w7_arg7]
  rw [e]
  exact row_entry _ _ j

end Cert.KernelIdeal.HostStages

end
-- ==== Proof.Spec.lean ====
/-
  What the four tiled stages compute, as whole-array functions on the extended reals, index by index.

  A node-feature matrix has 100000 rows.  The two dense layers are plain matrix products: entry (p, q) is the sum over
  the contracted coordinate l of X(p, l) · W(l, q).  The normalisation acts on each row separately: add the bias,
  clamp at zero, subtract the row's mean, multiply by the inverse square root of the row's variance plus ε, then scale
  and shift coordinate by coordinate.  The last stage adds a bias to every row.  Since every one of these reads only
  row p of its matrix operand to produce row p, a tiling of the rows into blocks computes the same array.

  The three literals of the normalisation (zero, the row width 128, ε) are kept as the binary words both programs
  carry, never evaluated: the same word on both sides denotes the same extended real.
-/
import Idealize.ShloMosaic.Lib.ValueIdx
import Idealize.ShloMosaic.PureOps.Ideal.Laws

noncomputable section

namespace Cert.Gcn

open Idealize.ShloMosaic Idealize.ShloMosaic.ValueIdx

/-- The word of 0.0. -/
abbrev zeroW : EReal := Ideal.ofBits .f32 0x00000000#32
/-- The word of 128.0, the width of a row. -/
abbrev widthW : EReal := Ideal.ofBits .f32 0x43000000#32
/-- The word of ε. -/
abbrev epsW : EReal := Ideal.ofBits .f32 0x3727C5AC#32

/-- Matrix product: entry (p, q) is the sum over l of X(p, l) · W(l, q). -/
def mmSpec {M K N : ℕ} (X : (⟨2, ![M, K]⟩ : Shape).Idx → EReal) (W : (⟨2, ![K, N]⟩ : Shape).Idx → EReal) :
    (⟨2, ![M, N]⟩ : Shape).Idx → EReal :=
  fun i => ∑ l : Fin K, X (ix2 (i 0) l) * W (ix2 l (i 1))

/-- A row after the bias and the clamp at zero. -/
def clampRow (a b : Fin 128 → EReal) (k : Fin 128) : EReal := max (a k + b k) zeroW

/-- The mean of the clamped row: its sum divided by the width. -/
def meanRow (a b : Fin 128 → EReal) : EReal := Ideal.div (∑ k : Fin 128, clampRow a b k) widthW

/-- The clamped row, centred. -/
def centRow (a b : Fin 128 → EReal) (k : Fin 128) : EReal := clampRow a b k - meanRow a b

/-- The variance of the clamped row: the mean of the squares of the centred row. -/
def varRow (a b : Fin 128 → EReal) : EReal := Ideal.div (∑ k : Fin 128, centRow a b k * centRow a b k) widthW

/-- One normalised row: centred, times the inverse root of variance plus ε, times the scale, plus the shift. -/
def normRow (a b g be : Fin 128 → EReal) (j : Fin 128) : EReal :=
  centRow a b j * Ideal.rsqrt (varRow a b + epsW) * g j + be j

/-- The normalisation of every row of a 100000 × 128 matrix. -/
def lnSpec {M : ℕ} (A : (⟨2, ![M, 128]⟩ : Shape).Idx → EReal) (b g be : Fin 128 → EReal) :
    (⟨2, ![M, 128]⟩ : Shape).Idx → EReal :=
  fun i => normRow (fun k => A (ix2 (i 0) k)) b g be (i 1)

/-- A bias added to every row. -/
def biasSpec {M N : ℕ} (A : (⟨2, ![M, N]⟩ : Shape).Idx → EReal) (b : Fin N → EReal) :
    (⟨2, ![M, N]⟩ : Shape).Idx → EReal :=
  fun i => A i + b (i 1)

end Cert.Gcn

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.RegionMm.lean ====
/-
  The two tiled matrix products.  Each grid point reads 5000 consecutive rows of the left matrix and the whole right
  matrix, and writes the 5000 × N block of products; entry (p, q) of a block is the sum over l of the block's row p
  times column q, and row p of block t is row 5000·t + p of the matrix, so the 20 blocks together are the product of
  the whole matrices.
-/
import proofs.«129371_j28140625723733_1_alg».proof.Proof.Gen.KernelIdeal.Frame
import proofs.«129371_j28140625723733_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«129371_j28140625723733_1_alg».proof.Proof.LibMatmulPlain
set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, on the extended reals
variable (V : (c : Dev nD) → (b : Ref sig .tc) → Buf (Elt Ideal) ((c : Thread nD τ).loc b))

/-- The whole-buffer rectangles of both products start at the origin. -/
theorem origin_mm : (![0, 0] : Fin 2 → Nat) = fun _ => 0 := funext fun a => by fin_cases a <;> rfl

/-! ## The first product, X · W₁ -/

/-- The dimension numbers of the first product contract the left columns with the right rows and keep the left
    rows and the right columns. -/
theorem plain0 : Cert.Gcn.IsPlain (M := 5000) (K := 128) (N := 128) dot_S5000x128_S128x128_S5000x128_1_0_0_1_n_n :=
  ⟨rfl, rfl, rfl, rfl, rfl, rfl⟩

/-- The body of the first product at an entry: the change of format is the identity on the extended reals, and the
    product into the zero accumulator is the sum over l of the left block's row entry times the right matrix's column
    entry. -/
theorem product0_entry (x0 : FVec Ideal S5000x128 .f32) (x1 : FVec Ideal S128x128 .f32) (y : S5000x128.Idx) :
    k0_pay1 (F := Ideal) x0 x1 y = ∑ l : Fin 128, x0 (ix2 (y 0) l) * x1 (ix2 l (y 1)) := by
  obtain ⟨p, q, rfl⟩ : ∃ (p : Fin 5000) (q : Fin 128), y = ix2 p q := ⟨y 0, y 1, eq_ix2 y⟩
  show matmul dot_S5000x128_S128x128_S5000x128_1_0_0_1_n_n none
      (truncf .bf16 x0 bitsLt_bf16_f32) (truncf .bf16 x1 bitsLt_bf16_f32)
      (constant (F := Ideal) S5000x128 .f32 0x00000000#32) (ix2 p q) = _
  exact Cert.Gcn.matmul_plain_apply _ plain0 none _ _ p q

/-- The index maps over the grid: the left matrix's window and the output's are at row block t, column block 0; the
    right matrix's window stays at block (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left matrix the region finds, as a function on its indices. -/
abbrev left0 (c : Dev nD) : S100000x128.Idx → EReal := V c main_arg0
/-- The right matrix the region finds, as a function on its indices. -/
abbrev right0 (c : Dev nD) : S128x128.Idx → EReal := V c main_arg2

/-- What grid point t writes back is block t of the product of the two matrices the region found. -/
theorem flushed0_eq (c : Dev nD) (t : Fin cfg0.N) :
    (dat0 (F := Ideal) V c).flushed 2 t = ((cfg0.win 2).blk t).view.read (Elt Ideal)
      (Cert.Gcn.mmSpec (M := 100000) (K := 128) (N := 128) (V c main_arg0) (V c main_arg2)) := by
  show (cfg0.win 2).cut (grid0.coords t) ((dat0 V c).after 2 t) = _
  rw [after0_2]
  unfold out0_2
  rw [View.canon_unit_zero origin_mm]
  simp only [View.ld_unit_zero (S := S5000x128) origin_mm, View.ld_unit_zero (S := S128x128) origin_mm]
  obtain ⟨e0, e1, e2, e3, e4, e5⟩ := index_maps0 t
  funext j
  refine (product0_entry (iblk0 V c 0 t) (iblk0 V c 1 t) j).trans ?_
  show ∑ l : Fin 128, left0 V c (((cfg0.win 0).blk t).view.emb (ix2 (j 0) l))
        * right0 V c (((cfg0.win 1).blk t).view.emb (ix2 l (j 1)))
    = ∑ l : Fin 128, left0 V c (ix2 ((((cfg0.win 2).blk t).view.emb j) 0) l)
        * right0 V c (ix2 l ((((cfg0.win 2).blk t).view.emb j) 1))
  refine Finset.sum_congr rfl fun l _ => ?_
  have h0 : ((cfg0.win 0).blk t).view.emb (ix2 (j 0) l) = ix2 ((((cfg0.win 2).blk t).view.emb j) 0) l := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * l.val = l.val; omega
  have h1 : ((cfg0.win 1).blk t).view.emb (ix2 l (j 1)) = ix2 l ((((cfg0.win 2).blk t).view.emb j) 1) := by
    funext a; apply Fin.ext
    match a with
    | ⟨0, _⟩ => show win0_1.index t (0 : Fin 2) * 128 + 1 * l.val = l.val; omega
    | ⟨1, _⟩ => show win0_1.index t (1 : Fin 2) * 128 + 1 * (j 1).val = win0_2.index t (1 : Fin 2) * 128 + 1 * (j 1).val; omega
  exact congrArg₂ (· * ·) (congrArg (left0 V c) h0) (congrArg (right0 V c) h1)

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row lies in the block of the grid point row / 5000: the twenty blocks tile the output array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  refine ⟨t, flush0_2 t, ?_⟩
  rw [mem_blk0]
  obtain ⟨e0, e1, e2, e3, e4, e5⟩ := index_maps0 t
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first product's region the output array holds X · W of the arrays the region found. -/
theorem final0 (c : Dev nD) :
    ((dat0 (F := Ideal) V c).arrAt 2 cfg0.N : S100000x128.Idx → EReal)
      = Cert.Gcn.mmSpec (M := 100000) (K := 128) (N := 128) (V c main_arg0) (V c main_arg2) :=
  (dat0 (F := Ideal) V c).arrAt_eq_of_cover 2 _ (fun t _ => flushed0_eq V c t) cover0

/-! ## The second product, H · W₂ -/

/-- The dimension numbers of the second product contract the left columns with the right rows and keep the left
    rows and the right columns. -/
theorem plain2 : Cert.Gcn.IsPlain (M := 5000) (K := 128) (N := 64) dot_S5000x128_S128x64_S5000x64_1_0_0_1_n_n :=
  ⟨rfl, rfl, rfl, rfl, rfl, rfl⟩

/-- The body of the second product at an entry: the change of format is the identity on the extended reals, the cast of the left
    block to its own shape is the identity, and the
    product into the zero accumulator is the sum over l of the left block's row entry times the right matrix's column
    entry. -/
theorem product2_entry (x0 : FVec Ideal S5000x128 .f32) (x1 : FVec Ideal S128x64 .f32) (y : S5000x64.Idx) :
    k2_pay1 (F := Ideal) x0 x1 y = ∑ l : Fin 128, x0 (ix2 (y 0) l) * x1 (ix2 l (y 1)) := by
  obtain ⟨p, q, rfl⟩ : ∃ (p : Fin 5000) (q : Fin 64), y = ix2 p q := ⟨y 0, y 1, eq_ix2 y⟩
  show matmul dot_S5000x128_S128x64_S5000x64_1_0_0_1_n_n none
      (truncf .bf16 (shapeCast S5000x128 x0 shapeCasts_S5000x128_S5000x128) bitsLt_bf16_f32) (truncf .bf16 x1 bitsLt_bf16_f32)
      (constant (F := Ideal) S5000x64 .f32 0x00000000#32) (ix2 p q) = _
  rw [shapeCast_self]
  exact Cert.Gcn.matmul_plain_apply _ plain2 none _ _ p q

/-- The index maps over the grid: the left matrix's window and the output's are at row block t, column block 0; the
    right matrix's window stays at block (0, 0). -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left matrix the region finds, as a function on its indices. -/
abbrev left2 (c : Dev nD) : S100000x128.Idx → EReal := V c main_v48
/-- The right matrix the region finds, as a function on its indices. -/
abbrev right2 (c : Dev nD) : S128x64.Idx → EReal := V c main_arg6

/-- What grid point t writes back is block t of the product of the two matrices the region found. -/
theorem flushed2_eq (c : Dev nD) (t : Fin cfg2.N) :
    (dat2 (F := Ideal) V c).flushed 2 t = ((cfg2.win 2).blk t).view.read (Elt Ideal)
      (Cert.Gcn.mmSpec (M := 100000) (K := 128) (N := 64) (V c main_v48) (V c main_arg6)) := by
  show (cfg2.win 2).cut (grid2.coords t) ((dat2 V c).after 2 t) = _
  rw [after2_2]
  unfold out2_2
  rw [View.canon_unit_zero origin_mm]
  simp only [View.ld_unit_zero (S := S5000x128) origin_mm, View.ld_unit_zero (S := S128x64) origin_mm]
  obtain ⟨e0, e1, e2, e3, e4, e5⟩ := index_maps2 t
  funext j
  refine (product2_entry (iblk2 V c 0 t) (iblk2 V c 1 t) j).trans ?_
  show ∑ l : Fin 128, left2 V c (((cfg2.win 0).blk t).view.emb (ix2 (j 0) l))
        * right2 V c (((cfg2.win 1).blk t).view.emb (ix2 l (j 1)))
    = ∑ l : Fin 128, left2 V c (ix2 ((((cfg2.win 2).blk t).view.emb j) 0) l)
        * right2 V c (ix2 l ((((cfg2.win 2).blk t).view.emb j) 1))
  refine Finset.sum_congr rfl fun l _ => ?_
  have h0 : ((cfg2.win 0).blk t).view.emb (ix2 (j 0) l) = ix2 ((((cfg2.win 2).blk t).view.emb j) 0) l := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * l.val = l.val; omega
  have h1 : ((cfg2.win 1).blk t).view.emb (ix2 l (j 1)) = ix2 l ((((cfg2.win 2).blk t).view.emb j) 1) := by
    funext a; apply Fin.ext
    match a with
    | ⟨0, _⟩ => show win2_1.index t (0 : Fin 2) * 128 + 1 * l.val = l.val; omega
    | ⟨1, _⟩ => show win2_1.index t (1 : Fin 2) * 64 + 1 * (j 1).val = win2_2.index t (1 : Fin 2) * 64 + 1 * (j 1).val; omega
  exact congrArg₂ (· * ·) (congrArg (left2 V c) h0) (congrArg (right2 V c) h1)

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v49).slice (win2_2.rect t)).set ↔ _
  rw [View.set_slice_whole, Rect.mem_set_unit]
  exact Iff.rfl

/-- Every row lies in the block of the grid point row / 5000: the twenty blocks tile the output array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  refine ⟨t, flush2_2 t, ?_⟩
  rw [mem_blk2]
  obtain ⟨e0, e1, e2, e3, e4, e5⟩ := index_maps2 t
  have ht : t.val = (i 0).val / 5000 := rfl
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the second product's region the output array holds H · W of the arrays the region found. -/
theorem final2 (c : Dev nD) :
    ((dat2 (F := Ideal) V c).arrAt 2 cfg2.N : S100000x64.Idx → EReal)
      = Cert.Gcn.mmSpec (M := 100000) (K := 128) (N := 64) (V c main_v48) (V c main_arg6) :=
  (dat2 (F := Ideal) V c).arrAt_eq_of_cover 2 _ (fun t _ => flushed2_eq V c t) cover2

end Cert.KernelIdeal.RegionValue

end
-- ==== Proof.RegionLn.lean ====
/-
  The tiled row normalisation.  Each grid point reads 5000 consecutive rows and the three 1 × 128 parameter rows and
  writes the 5000 normalised rows; a row's result depends on that row alone, so the 20 blocks together are the
  normalisation of every row of the matrix.
-/
import proofs.«129371_j28140625723733_1_alg».proof.Proof.Gen.KernelIdeal.Frame
import proofs.«129371_j28140625723733_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## Two column forms of the layout operations -/

section Columns
variable {α : Type}

/-- A length-`a` vector cast to an `a × 1` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The body's arithmetic, row by row -/

/-- The lane sum of a 5000 × 128 block: at row `p`, the sum of the row's 128 entries. -/
theorem rowSum_apply (w : FVec Ideal S5000x128 .f32) (p : Fin 5000) :
    multiReduction (F := Ideal) .add [1] S5000 w 0x00000000#32 reduces_S5000x128_S5000 (.inl rfl) rfl (ix1 p)
      = ∑ k : Fin 128, w (ix2 p k) := by
  refine (Ideal.multiReduction_add_single w 0x00000000#32 reduces_S5000x128_S5000 (.inl rfl) rfl (ix1 p)).trans ?_
  refine Finset.sum_congr rfl fun k _ => congrArg w ?_
  funext c
  apply Fin.ext
  match c with
  | ⟨0, _⟩ => rfl
  | ⟨1, _⟩ => rfl

/-- The column of row means of a block: each row's lane sum divided by the width. -/
def rowMeans (w : FVec Ideal S5000x128 .f32) : FVec Ideal S5000x1 .f32 :=
  divf (shapeCast S5000x1 (multiReduction (F := Ideal) .add [1] S5000 w 0x00000000#32 reduces_S5000x128_S5000 (.inl rfl) rfl) shapeCasts_S5000_S5000x1)
    (broadcast S5000x1 (Scalar.ofBits (F := Ideal) .f32 0x43000000#32))

theorem rowMeans_apply (w : FVec Ideal S5000x128 .f32) (p : Fin 5000) :
    rowMeans w (ix2 p (0 : Fin 1)) = Ideal.div (∑ k : Fin 128, w (ix2 p k)) Cert.Gcn.widthW := by
  unfold rowMeans
  rw [divf_apply, shapeCast_a_a1_apply, rowSum_apply]
  rfl

/-- The block after the bias row is added and the result clamped at zero. -/
def clamped (x0 : Vec Ideal S5000x128 .f32) (x1 : Vec Ideal S1x128 .f32) : FVec Ideal S5000x128 .f32 :=
  maximumf (addf (shapeCast S5000x128 x0 shapeCasts_S5000x128_S5000x128)
      (broadcastTo S5000x128 (shapeCast S1x128 x1 shapeCasts_S1x128_S1x128) broadcasts_S1x128_S5000x128))
    (broadcast S5000x128 (Scalar.ofBits (F := Ideal) .f32 0x00000000#32))

/-- The clamped block with each row's mean subtracted. -/
def centred (x0 : Vec Ideal S5000x128 .f32) (x1 : Vec Ideal S1x128 .f32) : FVec Ideal S5000x128 .f32 :=
  subf (clamped x0 x1) (broadcastTo S5000x128 (rowMeans (clamped x0 x1)) broadcasts_S5000x1_S5000x128)

/-- The body's result is the centred block times the inverse root of (row variance plus ε), times the scale row, plus
    the shift row; the row variance is the row mean of the squared centred block. -/
theorem k1_pay1_eq (x0 : Vec Ideal S5000x128 .f32) (x1 x2 x3 : Vec Ideal S1x128 .f32) :
    k1_pay1 (F := Ideal) x0 x1 x2 x3
      = addf (mulf (mulf (centred x0 x1)
            (broadcastTo S5000x128
              (rsqrt (addf (rowMeans (mulf (centred x0 x1) (centred x0 x1)))
                (broadcast S5000x1 (Scalar.ofBits (F := Ideal) .f32 0x3727C5AC#32))))
              broadcasts_S5000x1_S5000x128))
          (broadcastTo S5000x128 (shapeCast S1x128 x2 shapeCasts_S1x128_S1x128) broadcasts_S1x128_S5000x128))
        (broadcastTo S5000x128 (shapeCast S1x128 x3 shapeCasts_S1x128_S1x128) broadcasts_S1x128_S5000x128) := rfl

section Rows
variable (x0 : Vec Ideal S5000x128 .f32) (x1 x2 x3 : Vec Ideal S1x128 .f32) (p : Fin 5000)

/-- A parameter row broadcast over the block reads, at `(p, k)`, the row at `k`. -/
theorem paramRow_apply (x : Vec Ideal S1x128 .f32) (k : Fin 128) :
    broadcastTo S5000x128 (shapeCast S1x128 x shapeCasts_S1x128_S1x128) broadcasts_S1x128_S5000x128 (ix2 p k)
      = x (ix2 (0 : Fin 1) k) := by
  rw [shapeCast_self, broadcastTo_1b_ab_apply]

/-- Row `p` of the clamped block is the clamped row of the specification. -/
theorem clamped_apply (k : Fin 128) :
    clamped x0 x1 (ix2 p k) = Cert.Gcn.clampRow (fun k => x0 (ix2 p k)) (fun k => x1 (ix2 (0 : Fin 1) k)) k := by
  unfold clamped Cert.Gcn.clampRow
  rw [maximumf_apply, addf_apply, paramRow_apply, shapeCast_self]
  rfl

/-- The mean of row `p` of the clamped block. -/
theorem clamped_mean :
    rowMeans (clamped x0 x1) (ix2 p (0 : Fin 1)) = Cert.Gcn.meanRow (fun k => x0 (ix2 p k)) (fun k => x1 (ix2 (0 : Fin 1) k)) := by
  rw [rowMeans_apply]
  unfold Cert.Gcn.meanRow
  exact congrArg (fun s => Ideal.div s Cert.Gcn.widthW) (Finset.sum_congr rfl fun k _ => clamped_apply x0 x1 p k)

/-- Row `p` of the centred block is the centred row of the specification. -/
theorem centred_apply (k : Fin 128) :
    centred x0 x1 (ix2 p k) = Cert.Gcn.centRow (fun k => x0 (ix2 p k)) (fun k => x1 (ix2 (0 : Fin 1) k)) k := by
  unfold centred Cert.Gcn.centRow
  rw [subf_apply, broadcastTo_a1_ab_apply, clamped_apply, clamped_mean]

/-- The mean of row `p` of the squared centred block is the row's variance. -/
theorem centred_var :
    rowMeans (mulf (centred x0 x1) (centred x0 x1)) (ix2 p (0 : Fin 1))
      = Cert.Gcn.varRow (fun k => x0 (ix2 p k)) (fun k => x1 (ix2 (0 : Fin 1) k)) := by
  rw [rowMeans_apply]
  unfold Cert.Gcn.varRow
  refine congrArg (fun s => Ideal.div s Cert.Gcn.widthW) (Finset.sum_congr rfl fun k _ => ?_)
  rw [mulf_apply, centred_apply]

/-- THE BODY'S RESULT AT `(p, j)`: the normalised row of the specification, of row `p` of the block and the three
    parameter rows. -/
theorem k1_pay1_apply (j : Fin 128) :
    k1_pay1 (F := Ideal) x0 x1 x2 x3 (ix2 p j)
      = Cert.Gcn.normRow (fun k => x0 (ix2 p k)) (fun k => x1 (ix2 (0 : Fin 1) k))
          (fun k => x2 (ix2 (0 : Fin 1) k)) (fun k => x3 (ix2 (0 : Fin 1) k)) j := by
  rw [k1_pay1_eq]
  unfold Cert.Gcn.normRow
  rw [addf_apply, mulf_apply, mulf_apply, paramRow_apply, paramRow_apply, broadcastTo_a1_ab_apply, centred_apply]
  show _ * Ideal.rsqrt (rowMeans (mulf (centred x0 x1) (centred x0 x1)) (ix2 p (0 : Fin 1)) + Ideal.ofBits .f32 0x3727C5AC#32) * _ + _ = _
  rw [centred_var]

end Rows

/-! ## From the blocks to the array -/

-- the TensorCore's buffer contents when the region is entered, on the extended reals
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the data window and the output window are at block `(t, 0)`,
    the three parameter windows at block `(0, 0)`. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The data window's block at point `t` is rows `5000 t … 5000 t + 4999` of the array the region found. -/
theorem dataBlock_apply (c : Dev nD) (t : Fin cfg1.N) (p : Fin 5000) (k : Fin 128) (i : S100000x128.Idx)
    (hi0 : (i 0).val = 5000 * t.val + p.val) (hi1 : (i 1).val = k.val) :
    (iblk1 V c 0 t : Vec Ideal S5000x128 .f32) (ix2 p k) = (V c main_v44 : S100000x128.Idx → EReal) i := by
  obtain ⟨e0, e1, -⟩ := index_facts t
  unfold iblk1
  rw [View.read_apply]
  show (V c main_v44 : S100000x128.Idx → EReal) _ = _
  congr 1
  funext a
  apply Fin.ext
  match a with
  | ⟨0, _⟩ => show win1_0.index t (0 : Fin 2) * 5000 + 1 * p.val = (i 0).val; rw [e0, hi0]; omega
  | ⟨1, _⟩ => show win1_0.index t (1 : Fin 2) * 128 + 1 * k.val = (i 1).val; rw [e1, hi1]; omega

/-- The bias window's block at every point is the whole 1 × 128 array. -/
theorem biasBlock_apply (c : Dev nD) (t : Fin cfg1.N) (k : Fin 128) :
    (iblk1 V c 1 t : Vec Ideal S1x128 .f32) (ix2 (0 : Fin 1) k) = (V c main_v45 : S1x128.Idx → EReal) (ix2 (0 : Fin 1) k) := by
  obtain ⟨-, -, e0, e1, -⟩ := index_facts t
  unfold iblk1
  rw [View.read_apply]
  show (V c main_v45 : S1x128.Idx → EReal) _ = _
  congr 1
  funext a
  apply Fin.ext
  match a with
  | ⟨0, _⟩ => show win1_1.index t (0 : Fin 2) * 1 + 1 * 0 = 0; rw [e0]
  | ⟨1, _⟩ => show win1_1.index t (1 : Fin 2) * 128 + 1 * k.val = k.val; rw [e1]; omega

/-- The scale window's block at every point is the whole 1 × 128 array. -/
theorem scaleBlock_apply (c : Dev nD) (t : Fin cfg1.N) (k : Fin 128) :
    (iblk1 V c 2 t : Vec Ideal S1x128 .f32) (ix2 (0 : Fin 1) k) = (V c main_v46 : S1x128.Idx → EReal) (ix2 (0 : Fin 1) k) := by
  obtain ⟨-, -, -, -, e0, e1, -⟩ := index_facts t
  unfold iblk1
  rw [View.read_apply]
  show (V c main_v46 : S1x128.Idx → EReal) _ = _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- The shift window's block at every point is the whole 1 × 128 array. -/
theorem shiftBlock_apply (c : Dev nD) (t : Fin cfg1.N) (k : Fin 128) :
    (iblk1 V c 3 t : Vec Ideal S1x128 .f32) (ix2 (0 : Fin 1) k) = (V c main_v47 : S1x128.Idx → EReal) (ix2 (0 : Fin 1) k) := by
  obtain ⟨-, -, -, -, -, -, e0, e1, -⟩ := index_facts t
  unfold iblk1
  rw [View.read_apply]
  show (V c main_v47 : S1x128.Idx → EReal) _ = _
  congr 1
  funext a
  apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

/-- A normalised row depends only on the entries of its four rows and on the coordinate read. -/
theorem normRow_congr {a a' b b' g g' be be' : Fin 128 → EReal} {j j' : Fin 128} (ha : ∀ k, a k = a' k) (hb : ∀ k, b k = b' k)
    (hg : ∀ k, g k = g' k) (hbe : ∀ k, be k = be' k) (hj : j = j') :
    Cert.Gcn.normRow a b g be j = Cert.Gcn.normRow a' b' g' be' j' := by
  obtain rfl : a = a' := funext ha
  obtain rfl : b = b' := funext hb
  obtain rfl : g = g' := funext hg
  obtain rfl : be = be' := funext hbe
  rw [hj]

/-- Entry `(p, q)` of the body's result, of blocks that hold row `i 0` of an array `A` at their row `p` and the three
    parameter rows, is the row normalisation of `A` at `i`, when `q` is `i`'s column. -/
theorem point_eq (x0 : Vec Ideal S5000x128 .f32) (x1 x2 x3 : Vec Ideal S1x128 .f32)
    (A : S100000x128.Idx → EReal) (B G Be : S1x128.Idx → EReal) (p : Fin 5000) (q : Fin 128) (i : S100000x128.Idx)
    (h0 : ∀ k : Fin 128, x0 (ix2 p k) = A (ix2 (i 0) k)) (h1 : ∀ k : Fin 128, x1 (ix2 (0 : Fin 1) k) = B (ix2 (0 : Fin 1) k))
    (h2 : ∀ k : Fin 128, x2 (ix2 (0 : Fin 1) k) = G (ix2 (0 : Fin 1) k))
    (h3 : ∀ k : Fin 128, x3 (ix2 (0 : Fin 1) k) = Be (ix2 (0 : Fin 1) k)) (hq : (i 1).val = q.val) :
    k1_pay1 (F := Ideal) x0 x1 x2 x3 (ix2 p q)
      = Cert.Gcn.lnSpec (M := 100000) A (fun j => B (ix2 0 j)) (fun j => G (ix2 0 j)) (fun j => Be (ix2 0 j)) i :=
  (k1_pay1_apply x0 x1 x2 x3 p q).trans (normRow_congr h0 h1 h2 h3 (Fin.ext hq.symm))

/-- WHAT POINT `t` WRITES BACK is block `t` of the row normalisation of the array the region found: entry `(p, q)` of
    the body's result is the normalised row `5000 t + p` at `q`, and that row of the array is row `p` of the block. -/
theorem flushed_eq (c : Dev nD) (t : Fin cfg1.N) :
    (dat1 (F := Ideal) V c).flushed 4 t = ((cfg1.win 4).blk t).view.read (Elt Ideal)
      (Cert.Gcn.lnSpec (M := 100000) (V c main_v44)
          (fun j => (V c main_v45 : S1x128.Idx → EReal) (ix2 0 j))
          (fun j => (V c main_v46 : S1x128.Idx → EReal) (ix2 0 j))
          (fun j => (V c main_v47 : S1x128.Idx → EReal) (ix2 0 j))) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (ix2 p q)
    = Cert.Gcn.lnSpec (M := 100000) (V c main_v44)
        (fun j => (V c main_v45 : S1x128.Idx → EReal) (ix2 0 j))
        (fun j => (V c main_v46 : S1x128.Idx → EReal) (ix2 0 j))
        (fun j => (V c main_v47 : S1x128.Idx → EReal) (ix2 0 j))
        (((cfg1.win 4).blk t).view.emb (ix2 p q))
  obtain ⟨-, -, -, -, -, -, -, -, e8, e9⟩ := index_facts t
  refine point_eq (iblk1 V c 0 t) (iblk1 V c 1 t) (iblk1 V c 2 t) (iblk1 V c 3 t)
    (V c main_v44) (V c main_v45) (V c main_v46) (V c main_v47) p q (((cfg1.win 4).blk t).view.emb (ix2 p q))
    (fun k => dataBlock_apply V c t p k _ ?_ rfl) (fun k => biasBlock_apply V c t k)
    (fun k => scaleBlock_apply V c t k) (fun k => shiftBlock_apply V c t k) ?_
  · show win1_4.index t (0 : Fin 2) * 5000 + 1 * p.val = 5000 * t.val + p.val
    rw [e8]; omega
  · show win1_4.index t (1 : Fin 2) * 128 + 1 * q.val = q.val
    rw [e9]; omega

/-- An index of the array is in point `t`'s block iff each coordinate is in the block's range on its axis. -/
theorem mem_block (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v48).slice (win1_4.rect t)).set ↔ _
  rw [View.set_slice_whole, Rect.mem_set_unit]
  exact Iff.rfl

/-- The 20 blocks of 5000 rows cover the 100000 rows: row `r` is in the block of point `r / 5000`. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := by decide
  have ht : (i 0).val / 5000 < cfg1.N := by show (i 0).val / 5000 < grid1.N; omega
  obtain ⟨-, -, -, -, -, -, -, -, e8, e9⟩ := index_facts ⟨(i 0).val / 5000, ht⟩
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e9]
    omega

/-- After the normalisation's region the output array holds the row normalisation of the array the region found, with
    the bias, scale and shift rows read off the three 1 × 128 arrays. -/
theorem final1 (c : Dev nD) :
    ((dat1 (F := Ideal) V c).arrAt 4 cfg1.N : S100000x128.Idx → EReal)
      = Cert.Gcn.lnSpec (M := 100000) (V c main_v44)
          (fun j => (V c main_v45 : S1x128.Idx → EReal) (ix2 0 j))
          (fun j => (V c main_v46 : S1x128.Idx → EReal) (ix2 0 j))
          (fun j => (V c main_v47 : S1x128.Idx → EReal) (ix2 0 j)) :=
  (dat1 (F := Ideal) V c).arrAt_eq_of_cover 4 _ (fun t _ => flushed_eq V c t) covered

end Cert.KernelIdeal.RegionValue

end
-- ==== Proof.RegionBias.lean ====
/-
  The tiled bias addition.  Each grid point reads 5000 consecutive rows and the 1 × 64 bias row and writes the rows
  with the bias added; the 20 blocks together are the whole matrix with the bias added to every row.
-/
import proofs.«129371_j28140625723733_1_alg».proof.Proof.Gen.KernelIdeal.Frame
import proofs.«129371_j28140625723733_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, on the extended reals
variable (V : (c : Dev nD) → (b : Ref sig .tc) → Buf (Elt Ideal) ((c : Thread nD τ).loc b))

/-- The whole-buffer rectangles start at the origin. -/
theorem origin2 : (![0, 0] : Fin 2 → Nat) = fun _ => 0 := funext fun a => by fin_cases a <;> rfl

/-- The body at an entry: the loaded row block's entry plus the bias row's entry of that column. -/
theorem bias_entry (x0 : FVec Ideal S5000x64 .f32) (x1 : FVec Ideal S1x64 .f32) (y : S5000x64.Idx) :
    k3_pay1 (F := Ideal) x0 x1 y = x0 y + x1 (ix2 0 (y 1)) := by
  show addf (F := Ideal) (φ := .f32) (shapeCast S5000x64 x0 shapeCasts_S5000x64_S5000x64)
      (broadcastTo S5000x64 (shapeCast S1x64 x1 shapeCasts_S1x64_S1x64) broadcasts_S1x64_S5000x64) y = _
  rw [addf_apply, shapeCast_self, shapeCast_self]
  refine congrArg (x0 y + ·) ?_
  exact broadcastTo_apply (s := S1x64) (t := S5000x64) x1 _ y (ix2 0 (y 1)) (fun a => by
    match a with
    | ⟨0, _⟩ => show (0 : Nat) = if (1 : Nat) = 1 then 0 else _; rw [if_pos rfl]
    | ⟨1, _⟩ => show (y 1).val = if (64 : Nat) = 1 then 0 else _; rw [if_neg (by decide)]; rfl)

/-- The index maps over the grid: the two tiled windows are at row block t, column block 0; the bias row stays. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The matrix the region finds, as a function on its indices. -/
abbrev featIn (c : Dev nD) : S100000x64.Idx → EReal := V c main_v62
/-- The bias row the region finds, as a function on its indices. -/
abbrev biasIn (c : Dev nD) : S1x64.Idx → EReal := V c main_v63

/-- What grid point t writes back is block t of the matrix with the bias added to every row. -/
theorem flushed3_eq (c : Dev nD) (t : Fin cfg3.N) :
    (dat3 (F := Ideal) V c).flushed 2 t = ((cfg3.win 2).blk t).view.read (Elt Ideal)
      (Cert.Gcn.biasSpec (M := 100000) (N := 64) (V c main_v62) (fun j => (V c main_v63 : S1x64.Idx → EReal) (ix2 0 j))) := by
  show (cfg3.win 2).cut (grid3.coords t) ((dat3 V c).after 2 t) = _
  rw [after3_2]
  unfold out3_2
  rw [View.canon_unit_zero origin2]
  simp only [View.ld_unit_zero (S := S5000x64) origin2, View.ld_unit_zero (S := S1x64) origin2]
  obtain ⟨e0, e1, e2, e3, e4, e5⟩ := index_maps3 t
  funext j
  refine (bias_entry (iblk3 V c 0 t) (iblk3 V c 1 t) j).trans ?_
  show featIn V c (((cfg3.win 0).blk t).view.emb j) + biasIn V c (((cfg3.win 1).blk t).view.emb (ix2 0 (j 1)))
    = featIn V c (((cfg3.win 2).blk t).view.emb j) + biasIn V c (ix2 0 ((((cfg3.win 2).blk t).view.emb j) 1))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 0 (j 1)) = ix2 0 ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]
  rfl

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v64).slice (win3_2.rect t)).set ↔ _
  rw [View.set_slice_whole, Rect.mem_set_unit]
  exact Iff.rfl

/-- Every row lies in the block of the grid point row / 5000: the twenty blocks tile the array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  refine ⟨t, flush3_2 t, ?_⟩
  rw [mem_blk3]
  obtain ⟨e0, e1, e2, e3, e4, e5⟩ := index_maps3 t
  have ht : t.val = (i 0).val / 5000 := rfl
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the bias region the output array holds the array the region found with the bias row added to every row. -/
theorem final3 (c : Dev nD) :
    ((dat3 (F := Ideal) V c).arrAt 2 cfg3.N : S100000x64.Idx → EReal)
      = Cert.Gcn.biasSpec (M := 100000) (N := 64) (V c main_v62)
          (fun j => (V c main_v63 : S1x64.Idx → EReal) (ix2 0 j)) :=
  (dat3 (F := Ideal) V c).arrAt_eq_of_cover 2 _ (fun t _ => flushed3_eq V c t) cover3

end Cert.KernelIdeal.RegionValue

end
-- ==== Proof.RefMm.lean ====
/-
  The reference's two dense layers are the host's dot_general with one contracted axis: entry (p, q) is the sum over l
  of X(p, l) · W(l, q).
-/
import proofs.«129371_j28140625723733_1_alg».proof.Proof.RefRead
import proofs.«129371_j28140625723733_1_alg».proof.Proof.Spec
import Idealize.ShloMosaic.Lib.ValueIdx
import Idealize.ShloMosaic.PureOps.Ideal.Laws
import proofs.«129371_j28140625723733_1_alg».proof.Proof.LibMatmulPlain

noncomputable section

namespace Cert.ReferenceIdeal.RefValue

open Cert.ReferenceIdeal Cert.ReferenceIdeal.ReadP
open Idealize.ShloMosaic Idealize.ShloMosaic.ValueIdx

/-- The first layer's dimension numbers contract the left columns with the right rows and keep the left rows and the
    right columns. -/
theorem plain_layer1 : Cert.Gcn.IsPlain (M := 100000) (K := 128) (N := 128) dot_S100000x128_S128x128_S100000x128_1_0_0_1_n_n :=
  ⟨rfl, rfl, rfl, rfl, rfl, rfl⟩

/-- The second layer's dimension numbers are of the same pattern. -/
theorem plain_layer2 : Cert.Gcn.IsPlain (M := 100000) (K := 128) (N := 64) dot_S100000x128_S128x64_S100000x64_1_0_0_1_n_n :=
  ⟨rfl, rfl, rfl, rfl, rfl, rfl⟩

/-- The first dense layer of the reference is the plain matrix product. -/
theorem ref_mm1 (x0 : (⟨S100000x128, .f32⟩ : BufTy).Contents (Elt Ideal)) (x2 : (⟨S128x128, .f32⟩ : BufTy).Contents (Elt Ideal)) :
    (val_main_v31 (F := Ideal) x0 x2 : S100000x128.Idx → EReal)
      = Cert.Gcn.mmSpec (M := 100000) (K := 128) (N := 128) x0 x2 := by
  funext i
  obtain ⟨p, q, rfl⟩ : ∃ (p : Fin 100000) (q : Fin 128), i = ix2 p q := ⟨i 0, i 1, eq_ix2 i⟩
  show Host.dotGeneral (F := Ideal) (φ₁ := .f32) (φ₂ := .f32) dot_S100000x128_S128x128_S100000x128_1_0_0_1_n_n none x0 x2 (ix2 p q)
    = ∑ l : Fin 128, x0 (ix2 p l) * x2 (ix2 l q)
  exact Cert.Gcn.dotGeneral_plain_apply _ plain_layer1 none x0 x2 p q

/-- The second dense layer of the reference, on any 100000 × 128 matrix, is the plain matrix product. -/
theorem ref_mm2 (H : (⟨S100000x128, .f32⟩ : BufTy).Contents (Elt Ideal)) (x6 : (⟨S128x64, .f32⟩ : BufTy).Contents (Elt Ideal)) :
    (Host.dotGeneral (F := Ideal) (φ₁ := .f32) (φ₂ := .f32) dot_S100000x128_S128x64_S100000x64_1_0_0_1_n_n none H x6 : S100000x64.Idx → EReal)
      = Cert.Gcn.mmSpec (M := 100000) (K := 128) (N := 64) H x6 := by
  funext i
  obtain ⟨p, q, rfl⟩ : ∃ (p : Fin 100000) (q : Fin 64), i = ix2 p q := ⟨i 0, i 1, eq_ix2 i⟩
  show Host.dotGeneral (F := Ideal) (φ₁ := .f32) (φ₂ := .f32) dot_S100000x128_S128x64_S100000x64_1_0_0_1_n_n none H x6 (ix2 p q)
    = ∑ l : Fin 128, H (ix2 p l) * x6 (ix2 l q)
  exact Cert.Gcn.dotGeneral_plain_apply _ plain_layer2 none H x6 p q

end Cert.ReferenceIdeal.RefValue

end
-- ==== Proof.RefLn.lean ====
/-
  The reference's bias, clamp at zero and layer normalisation, read row by row: the stages from the aggregated
  features (stage 44) to the normalised features (stage 72) compute, at entry (p, j), the normalisation of row p.
  The host's row sums start from the zero word, which adds nothing.

  The road is bottom-up, one row p at a time.  Every broadcast on the way repeats either a per-row scalar (read at
  (p, 0)) or a per-column vector (read at column j), so each stage at entry (p, j) is a function of row p of the
  aggregated features and of the three vectors alone: first the clamped row, then its mean, the centred row (the
  reference forms this difference twice, from two copies of the broadcast mean), the variance, and last the
  normalised entry.  The three literals stay the words the program carries; only the zero word that starts a row
  sum is evaluated, to the zero that adds nothing.
-/
import proofs.«129371_j28140625723733_1_alg».proof.Proof.RefRead
import proofs.«129371_j28140625723733_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.ReadP
open Idealize.ShloMosaic Idealize.ShloMosaic.ValueIdx

/-- Row p of the aggregated features (stage 44), as a function of the column. -/
abbrev aggRow (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (p : Fin 100000) : Fin 128 → EReal :=
  fun k => (val_main_v44 (F := Ideal) x0 x1 x2 : S100000x128.Idx → EReal) (ix2 p k)

/-- A vector of 128 entries read coordinate by coordinate. -/
abbrev coords (x : (⟨S128, .f32⟩ : BufTy).Contents (Elt Ideal)) : Fin 128 → EReal :=
  fun j => (x : S128.Idx → EReal) (ix1 j)

/-! ## Where the broadcasts read

A vector of 128 entries repeated over the rows is read, at entry (p, j), at its coordinate j (the bias, the scale and
the shift: three copies of the same pair of broadcasts).  A per-row scalar kept as a column of width one is read at
(p, 0) (the two copies of the mean, and the inverse root), and that column was made from the vector of row sums,
read at p.  The row sum at p runs over the entries (p, k). -/

theorem bias_idx (p : Fin 100000) (k : Fin 128) : idx_main_v45 (idx_main_v46 (ix2 p k)) = ix1 k :=
  funext fun a => Fin.ext (by match a with | ⟨0, _⟩ => rfl)
theorem scale_idx (p : Fin 100000) (k : Fin 128) : idx_main_v67 (idx_main_v68 (ix2 p k)) = ix1 k :=
  funext fun a => Fin.ext (by match a with | ⟨0, _⟩ => rfl)
theorem shift_idx (p : Fin 100000) (k : Fin 128) : idx_main_v70 (idx_main_v71 (ix2 p k)) = ix1 k :=
  funext fun a => Fin.ext (by match a with | ⟨0, _⟩ => rfl)

theorem mean_idx (p : Fin 100000) (k : Fin 128) : idx_main_v53 (ix2 p k) = ix2 p (0 : Fin 1) :=
  funext fun a => Fin.ext (by match a with | ⟨0, _⟩ => rfl | ⟨1, _⟩ => rfl)
theorem mean_idx' (p : Fin 100000) (k : Fin 128) : idx_main_v60 (ix2 p k) = ix2 p (0 : Fin 1) :=
  funext fun a => Fin.ext (by match a with | ⟨0, _⟩ => rfl | ⟨1, _⟩ => rfl)
theorem root_idx (p : Fin 100000) (k : Fin 128) : idx_main_v65 (ix2 p k) = ix2 p (0 : Fin 1) :=
  funext fun a => Fin.ext (by match a with | ⟨0, _⟩ => rfl | ⟨1, _⟩ => rfl)

theorem sum_col_idx (p : Fin 100000) : idx_main_v50 (ix2 p (0 : Fin 1)) = ix1 p :=
  funext fun a => Fin.ext (by match a with | ⟨0, _⟩ => rfl)
theorem sqsum_col_idx (p : Fin 100000) : idx_main_v57 (ix2 p (0 : Fin 1)) = ix1 p :=
  funext fun a => Fin.ext (by match a with | ⟨0, _⟩ => rfl)

theorem sum_idx (p : Fin 100000) (k : Fin 128) : idx_main_v49 (ix1 p) k = ix2 p k :=
  funext fun a => Fin.ext (by match a with | ⟨0, _⟩ => rfl | ⟨1, _⟩ => rfl)
theorem sqsum_idx (p : Fin 100000) (k : Fin 128) : idx_main_v56 (ix1 p) k = ix2 p k :=
  funext fun a => Fin.ext (by match a with | ⟨0, _⟩ => rfl | ⟨1, _⟩ => rfl)

/-! ## The stages, row by row -/

/-- Stage 48 at (p, k): the aggregated entry plus the bias, clamped at the zero word. -/
theorem ref_clamp (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (p : Fin 100000) (k : Fin 128) :
    (val_main_v48 (F := Ideal) x0 x1 x2 x3 : S100000x128.Idx → EReal) (ix2 p k)
      = Cert.Gcn.clampRow (aggRow x0 x1 x2 p) (coords x3) k := by
  rw [val_main_v48_apply, val_main_v47_apply, val_main_call1_v0_apply, val_main_call1_cst_apply, val_main_v46_apply,
    val_main_v45_apply, bias_idx]
  simp only [Ideal.addf_def, Ideal.maximumf_def, Ideal.ofBits_def, Cert.Gcn.clampRow]

/-- Stage 52 at (p, 0): the row sum of the clamped row, begun at the zero word, divided by the word of 128. -/
theorem ref_mean (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (p : Fin 100000) :
    (val_main_v52 (F := Ideal) x0 x1 x2 x3 : S100000x1.Idx → EReal) (ix2 p (0 : Fin 1))
      = Cert.Gcn.meanRow (aggRow x0 x1 x2 p) (coords x3) := by
  rw [val_main_v52_apply, val_main_v50_apply, sum_col_idx, val_main_v49_apply, val_main_v51_apply,
    val_main_cst_10_apply, val_main_cst_9_apply]
  simp only [sum_idx, ref_clamp, Ideal.hostDivf_def, Ideal.ofBits_def]
  rw [Ideal.ofBits_zero_f32, zero_add]
  unfold Cert.Gcn.meanRow
  with_reducible rfl

/-- Stage 54 at (p, k): the clamped entry minus the row's mean. -/
theorem ref_cent (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (p : Fin 100000) (k : Fin 128) :
    (val_main_v54 (F := Ideal) x0 x1 x2 x3 : S100000x128.Idx → EReal) (ix2 p k)
      = Cert.Gcn.centRow (aggRow x0 x1 x2 p) (coords x3) k := by
  rw [val_main_v54_apply, val_main_v53_apply, mean_idx, ref_mean, ref_clamp, Ideal.subf_def]
  unfold Cert.Gcn.centRow
  with_reducible rfl

/-- Stage 61 at (p, k): the same difference, formed from the second copy of the broadcast mean. -/
theorem ref_cent' (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (p : Fin 100000) (k : Fin 128) :
    (val_main_v61 (F := Ideal) x0 x1 x2 x3 : S100000x128.Idx → EReal) (ix2 p k)
      = Cert.Gcn.centRow (aggRow x0 x1 x2 p) (coords x3) k := by
  rw [val_main_v61_apply, val_main_v60_apply, mean_idx', ref_mean, ref_clamp, Ideal.subf_def]
  unfold Cert.Gcn.centRow
  with_reducible rfl

/-- Stage 55 at (p, k): the square of the centred entry. -/
theorem ref_sq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (p : Fin 100000) (k : Fin 128) :
    (val_main_v55 (F := Ideal) x0 x1 x2 x3 : S100000x128.Idx → EReal) (ix2 p k)
      = Cert.Gcn.centRow (aggRow x0 x1 x2 p) (coords x3) k * Cert.Gcn.centRow (aggRow x0 x1 x2 p) (coords x3) k := by
  rw [val_main_v55_apply, ref_cent, Ideal.mulf_def]

/-- Stage 59 at (p, 0): the row sum of the squares of the centred row, begun at the zero word, divided by the word
    of 128. -/
theorem ref_var (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (p : Fin 100000) :
    (val_main_v59 (F := Ideal) x0 x1 x2 x3 : S100000x1.Idx → EReal) (ix2 p (0 : Fin 1))
      = Cert.Gcn.varRow (aggRow x0 x1 x2 p) (coords x3) := by
  rw [val_main_v59_apply, val_main_v57_apply, sqsum_col_idx, val_main_v56_apply, val_main_v58_apply,
    val_main_cst_12_apply, val_main_cst_11_apply]
  simp only [sqsum_idx, ref_sq, Ideal.hostDivf_def, Ideal.ofBits_def]
  rw [Ideal.ofBits_zero_f32, zero_add]
  unfold Cert.Gcn.varRow
  with_reducible rfl

/-- Stage 72 at (p, j): the centred entry times the inverse root of the variance plus the word of ε, times the scale,
    plus the shift. -/
theorem ref_norm (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal)) (p : Fin 100000) (j : Fin 128) :
    (val_main_v72 (F := Ideal) x0 x1 x2 x3 x4 x5 : S100000x128.Idx → EReal) (ix2 p j)
      = Cert.Gcn.normRow (aggRow x0 x1 x2 p) (coords x3) (coords x4) (coords x5) j := by
  rw [val_main_v72_apply, val_main_v69_apply, val_main_v66_apply, ref_cent', val_main_v65_apply, root_idx,
    val_main_v64_apply, val_main_v63_apply, ref_var, val_main_v62_apply, val_main_cst_13_apply, val_main_v68_apply,
    val_main_v67_apply, scale_idx, val_main_v71_apply, val_main_v70_apply, shift_idx]
  rw [Ideal.addf_def, Ideal.addf_def, Ideal.mulf_def, Ideal.mulf_def, Ideal.hostUnary_rsqrt_def, Ideal.ofBits_def]
  unfold Cert.Gcn.normRow
  with_reducible rfl

/-- The reference's normalised features are the row normalisation of its aggregated features, with the bias, scale
    and shift vectors read coordinate by coordinate. -/
theorem ref_ln (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal)) :
    (val_main_v72 (F := Ideal) x0 x1 x2 x3 x4 x5 : S100000x128.Idx → EReal)
      = Cert.Gcn.lnSpec (M := 100000) (val_main_v44 (F := Ideal) x0 x1 x2)
          (fun j => (x3 : S128.Idx → EReal) (ix1 j)) (fun j => (x4 : S128.Idx → EReal) (ix1 j)) (fun j => (x5 : S128.Idx → EReal) (ix1 j)) := by
  funext i
  obtain ⟨p, j, rfl⟩ : ∃ (p : Fin 100000) (j : Fin 128), i = ix2 p j := ⟨i 0, i 1, eq_ix2 i⟩
  exact ref_norm x0 x1 x2 x3 x4 x5 p j

end Cert.ReferenceIdeal.RefValue

end
-- ==== Proof.RefBias.lean ====
/-
  The reference's last step adds the output bias, broadcast over the rows, to the aggregated features.
-/
import proofs.«129371_j28140625723733_1_alg».proof.Proof.RefRead
import proofs.«129371_j28140625723733_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.ReadP
open Idealize.ShloMosaic Idealize.ShloMosaic.ValueIdx

/-- Adding the broadcast bias is adding the bias vector to every row. -/
theorem ref_bias (A : (⟨S100000x64, .f32⟩ : BufTy).Contents (Elt Ideal)) (x7 : (⟨S64, .f32⟩ : BufTy).Contents (Elt Ideal)) :
    (addf (F := Ideal) (φ := .f32) (s := S100000x64) A (val_main_v115 (F := Ideal) x7) : S100000x64.Idx → EReal)
      = Cert.Gcn.biasSpec (M := 100000) (N := 64) A (fun j => (x7 : S64.Idx → EReal) (ix1 j)) := by
  funext i
  -- the two broadcasts read the bias vector at the entry's column
  have hcol : idx_main_v114 (idx_main_v115 i) = ix1 (i 1) :=
    funext fun a => Fin.ext (by match a with | ⟨0, _⟩ => rfl)
  rw [addf_apply, val_main_v115_apply, val_main_v114_apply, hcol]
  rfl

end Cert.ReferenceIdeal.RefValue

end
-- ==== Proof.Chain.lean ====
/-
  The tiled program's boundary buffers, one after the other, are the reference's stages.

  On the extended reals a tiled matrix product is the whole product, so the first region's output is the reference's
  first dense layer of the same arguments; the aggregation stretch turns equal inputs into equal outputs; the tiled
  row normalisation of that is the reference's normalised features; the second tiled product is the reference's
  second dense layer; the second aggregation again; and the tiled bias addition is the reference's result.  Each step
  takes the array the previous step identified and the argument arrays, which nothing writes.
-/
import proofs.«129371_j28140625723733_1_alg».proof.Proof.HostAgg
import proofs.«129371_j28140625723733_1_alg».proof.Proof.RegionMm
import proofs.«129371_j28140625723733_1_alg».proof.Proof.RegionLn
import proofs.«129371_j28140625723733_1_alg».proof.Proof.RegionBias
import proofs.«129371_j28140625723733_1_alg».proof.Proof.RefMm
import proofs.«129371_j28140625723733_1_alg».proof.Proof.RefLn
import proofs.«129371_j28140625723733_1_alg».proof.Proof.RefBias

set_option maxRecDepth 16384

noncomputable section

namespace Cert.KernelIdeal.Chain

open Cert.KernelIdeal Cert.KernelIdeal.Gen Cert.KernelIdeal.HostStages Cert.KernelIdeal.RegionValue
open Idealize.ShloMosaic Idealize.ShloMosaic.TcCoe Idealize.ShloMosaic.ValueIdx Idealize.SL.Sem
open Cert.ReferenceIdeal.ReadP Cert.ReferenceIdeal.RefValue

variable (m : (ℓ : Loc nD τ sig) → Buf (Elt Ideal) ℓ) (ρ : Dev nD → PrngReg)

/-- The argument arrays as launched: the node features, the two weight matrices, the two biases, the scale and the shift. -/
abbrev a0 (c : Dev nD) : (⟨Cert.ReferenceIdeal.S100000x128, .f32⟩ : BufTy).Contents (Elt Ideal) := m ((c : Thread nD τ).loc main_arg0)
abbrev a2 (c : Dev nD) : (⟨Cert.ReferenceIdeal.S128x128, .f32⟩ : BufTy).Contents (Elt Ideal) := m ((c : Thread nD τ).loc main_arg2)
abbrev a3 (c : Dev nD) : (⟨Cert.ReferenceIdeal.S128, .f32⟩ : BufTy).Contents (Elt Ideal) := m ((c : Thread nD τ).loc main_arg3)
abbrev a4 (c : Dev nD) : (⟨Cert.ReferenceIdeal.S128, .f32⟩ : BufTy).Contents (Elt Ideal) := m ((c : Thread nD τ).loc main_arg4)
abbrev a5 (c : Dev nD) : (⟨Cert.ReferenceIdeal.S128, .f32⟩ : BufTy).Contents (Elt Ideal) := m ((c : Thread nD τ).loc main_arg5)
abbrev a6 (c : Dev nD) : (⟨Cert.ReferenceIdeal.S128x64, .f32⟩ : BufTy).Contents (Elt Ideal) := m ((c : Thread nD τ).loc main_arg6)
abbrev a7 (c : Dev nD) : (⟨Cert.ReferenceIdeal.S64, .f32⟩ : BufTy).Contents (Elt Ideal) := m ((c : Thread nD τ).loc main_arg7)

/-- After the first region: the first dense layer. -/
theorem w4_feat (c : Dev nD) : W4 m ρ c (Proc.devRef .tc main_v31) = val_main_v31 (F := Ideal) (a0 m c) (a2 m c) := by
  refine (W4_arr m ρ c 2).trans ((final0 (V3 m ρ) c).trans ?_)
  rw [ref_mm1]
  show Cert.Gcn.mmSpec (M := 100000) (K := 128) (N := 128) (W3 m ρ c (Proc.devRef .tc main_arg0)) (W3 m ρ c (Proc.devRef .tc main_arg2)) = _
  rw [w3_arg0, w3_arg2]

/-- At the second region's entry: the aggregated features. -/
theorem w5_feat (c : Dev nD) : W5 m ρ c (Proc.devRef .tc main_v44) = val_main_v44 (F := Ideal) (a0 m c) (edges m c) (a2 m c) :=
  w5_agg_of m ρ c _ _ (w4_feat m ρ c)

/-- After the second region: the normalised features. -/
theorem w6_ln (c : Dev nD) : W6 m ρ c (Proc.devRef .tc main_v48) = val_main_v72 (F := Ideal) (a0 m c) (edges m c) (a2 m c) (a3 m c) (a4 m c) (a5 m c) := by
  refine (W6_arr m ρ c 4).trans ((final1 (V5 m ρ) c).trans ?_)
  rw [ref_ln]
  have hA : V5 m ρ c main_v44 = val_main_v44 (F := Ideal) (a0 m c) (edges m c) (a2 m c) := w5_feat m ρ c
  have hb : (fun j : Fin 128 => (V5 m ρ c main_v45 : S1x128.Idx → EReal) (ix2 0 j)) = fun j => (a3 m c : Cert.ReferenceIdeal.S128.Idx → EReal) (ix1 j) :=
    funext fun j => w5_biasRow m ρ c j
  have hg : (fun j : Fin 128 => (V5 m ρ c main_v46 : S1x128.Idx → EReal) (ix2 0 j)) = fun j => (a4 m c : Cert.ReferenceIdeal.S128.Idx → EReal) (ix1 j) :=
    funext fun j => w5_scaleRow m ρ c j
  have hs : (fun j : Fin 128 => (V5 m ρ c main_v47 : S1x128.Idx → EReal) (ix2 0 j)) = fun j => (a5 m c : Cert.ReferenceIdeal.S128.Idx → EReal) (ix1 j) :=
    funext fun j => w5_shiftRow m ρ c j
  rw [hA, hb, hg, hs]

/-- After the third region: the second dense layer. -/
theorem w7_mm (c : Dev nD) : W7 m ρ c (Proc.devRef .tc main_v49) = val_main_v100 (F := Ideal) (a0 m c) (edges m c) (a2 m c) (a3 m c) (a4 m c) (a5 m c) (a6 m c) := by
  refine (W7_arr m ρ c 2).trans ((final2 (V6 m ρ) c).trans ?_)
  show Cert.Gcn.mmSpec (M := 100000) (K := 128) (N := 64) (W6 m ρ c (Proc.devRef .tc main_v48)) (W6 m ρ c (Proc.devRef .tc main_arg6)) = _
  rw [w6_ln, w6_arg6]
  exact (ref_mm2 _ _).symm

/-- At the fourth region's entry: the aggregated output features. -/
theorem w8_feat (c : Dev nD) : W8 m ρ c (Proc.devRef .tc main_v62) = val_main_v113 (F := Ideal) (a0 m c) (edges m c) (a2 m c) (a3 m c) (a4 m c) (a5 m c) (a6 m c) :=
  w8_agg_of m ρ c _ _ _ _ _ _ (w7_mm m ρ c)

/-- After the fourth region: the result array is the reference's result, as a function of the launched arguments. -/
theorem w9_out (c : Dev nD) : W9 m ρ c (Proc.devRef .tc main_v64) = val_main_v116 (F := Ideal) (a0 m c) (edges m c) (a2 m c) (a3 m c) (a4 m c) (a5 m c) (a6 m c) (a7 m c) := by
  refine (W9_arr m ρ c 2).trans ((final3 (V8 m ρ) c).trans ?_)
  have hA : V8 m ρ c main_v62 = val_main_v113 (F := Ideal) (a0 m c) (edges m c) (a2 m c) (a3 m c) (a4 m c) (a5 m c) (a6 m c) := w8_feat m ρ c
  have hb : (fun j : Fin 64 => (V8 m ρ c main_v63 : S1x64.Idx → EReal) (ix2 0 j)) = fun j => (a7 m c : Cert.ReferenceIdeal.S64.Idx → EReal) (ix1 j) :=
    funext fun j => w8_biasRow m ρ c j
  rw [hA, hb]
  exact (ref_bias _ _).symm

end Cert.KernelIdeal.Chain

end
-- ==== Proof.lean ====
/-
  The certificate of the two-layer graph convolution: the tiled program against its plain reference.

  The tiled program computes x·W1 by a tiled matrix product, aggregates over the graph's normalised edges in plain
  host operations, applies bias, clamp at zero and row normalisation by a tiled kernel, multiplies by W2 by a second
  tiled product, aggregates again and adds the output bias by a tiled kernel; the reference does all of it in plain
  host operations.  On the extended reals a format change is the identity, a tiled product is the whole product and
  a row-wise operation on row blocks is the operation on the whole matrix, so every boundary array of the tiled
  program is a stage of the reference (Proof/Chain.lean), and the two results are one function of the arguments.
  No algebraic law that needs finiteness is used: the precondition is never opened.

  The three frames: both tiled programs' frames are the generated launch over their four regions; the reference's is
  its run with the result dropped.  The idealization rewrote nothing, so there is nothing to preserve.
-/
import proofs.«129371_j28140625723733_1_alg».proof.Defs
import proofs.«129371_j28140625723733_1_alg».proof.Proof.Gen.Kernel
import proofs.«129371_j28140625723733_1_alg».proof.Proof.Gen.Kernel.Skeleton
import proofs.«129371_j28140625723733_1_alg».proof.Proof.Gen.Kernel.Launch
import proofs.«129371_j28140625723733_1_alg».proof.Proof.Gen.Kernel.Points
import proofs.«129371_j28140625723733_1_alg».proof.Proof.Gen.Kernel.Frame
import proofs.«129371_j28140625723733_1_alg».proof.Proof.Gen.KernelIdeal
import proofs.«129371_j28140625723733_1_alg».proof.Proof.Gen.KernelIdeal.Skeleton
import proofs.«129371_j28140625723733_1_alg».proof.Proof.Gen.KernelIdeal.Launch
import proofs.«129371_j28140625723733_1_alg».proof.Proof.Gen.KernelIdeal.Points
import proofs.«129371_j28140625723733_1_alg».proof.Proof.Gen.KernelIdeal.Frame
import proofs.«129371_j28140625723733_1_alg».proof.Proof.Gen.ReferenceIdeal
import proofs.«129371_j28140625723733_1_alg».proof.Proof.Gen.Pre_finite_inputs
import proofs.«129371_j28140625723733_1_alg».proof.Proof.RefRun
import proofs.«129371_j28140625723733_1_alg».proof.Proof.RefRead
import proofs.«129371_j28140625723733_1_alg».proof.Proof.KernelRun
import proofs.«129371_j28140625723733_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories agreeing on the arguments both programs run, and end with one result: the tiled program's result
    array is the reference's last stage of the launched arguments, and the reference's run ends at that stage of its
    own, equal, arguments. -/
theorem algebraic : Cert.algebraic_KernelIdeal_ReferenceIdeal := by
  intro m ρ m' ρ' _ hagree
  refine ⟨fun c => Cert.KernelIdeal.Gen.W9 m ρ c (Proc.devRef .tc Cert.KernelIdeal.main_v64),
    Cert.KernelIdeal.RunValue.run_named (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7⟩ := hagree c
  rw [Cert.ReferenceIdeal.ReadP.val_main_v116_eq, h0, h1, h2, h3, h4, h5, h6, h7]
  exact (Cert.KernelIdeal.Chain.w9_out m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
